-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S400000 : Shape := ⟨1, ![400000]⟩
abbrev S1000 : Shape := ⟨1, ![1000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S400000 : S_.BroadcastsInDim S400000 (![] : Fin 0 → Fin S400000.rank)
  reducesTo_S400000_S_d0 : S400000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S2x400000 32) (main_arg2 : FVec F S400000 .f32) (main_arg3 : IVec S1000 32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S2x400000 : Shape := ⟨2, ![2, 400000]⟩
abbrev S400000 : Shape := ⟨1, ![400000]⟩
abbrev S1000 : Shape := ⟨1, ![1000]⟩
abbrev S256x256 : Shape := ⟨2, ![256, 256]⟩
abbrev S256 : Shape := ⟨1, ![256]⟩
abbrev S1x256 : Shape := ⟨2, ![1, 256]⟩
abbrev S1000x256 : Shape := ⟨2, ![1000, 256]⟩
abbrev S_ : Shape := ⟨0, ![]⟩
abbrev S5000x256 : Shape := ⟨2, ![5000, 256]⟩
abbrev S1x400000 : Shape := ⟨2, ![1, 400000]⟩
abbrev S50000 : Shape := ⟨1, ![50000]⟩
abbrev S1000x1 : Shape := ⟨2, ![1000, 1]⟩
abbrev S400000x1 : Shape := ⟨2, ![400000, 1]⟩
abbrev S400000x256 : Shape := ⟨2, ![400000, 256]⟩

abbrev nBuf : Space → Nat
  | .hbm => 100
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S400000, .f32⟩
  | .hbm, ⟨3, _⟩ => ⟨S1000, .i32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x256, .f32⟩
  | .hbm, ⟨20, _⟩ => ⟨S1x256, .f32⟩
  | .hbm, ⟨21, _⟩ => ⟨S256x256, .f32⟩
  | .hbm, ⟨22, _⟩ => ⟨S256x256, .i1⟩
  | .hbm, ⟨23, _⟩ => ⟨S_, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S_, .i1⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S50000x256, .f32⟩
  | .hbm, ⟨33, _⟩ => ⟨S1x400000, .i32⟩
  | .hbm, ⟨34, _⟩ => ⟨S400000, .i32⟩
  | .hbm, ⟨35, _⟩ => ⟨S1x400000, .i32⟩
  | .hbm, ⟨36, _⟩ => ⟨S400000, .i32⟩
  | .hbm, ⟨37, _⟩ => ⟨S_, .i1⟩
  | .hbm, ⟨38, _⟩ => ⟨S50000, .i1⟩
  | .hbm, ⟨39, _⟩ => ⟨S_, .i32⟩
  | .hbm, ⟨40, _⟩ => ⟨S1000, .i32⟩
  | .hbm, ⟨41, _⟩ => ⟨S1000, .i1⟩
  | .hbm, ⟨42, _⟩ => ⟨S_, .i32⟩
  | .hbm, ⟨43, _⟩ => ⟨S1000, .i32⟩
  | .hbm, ⟨44, _⟩ => ⟨S1000, .i32⟩
  | .hbm, ⟨45, _⟩ => ⟨S1000, .i32⟩
  | .hbm, ⟨46, _⟩ => ⟨S1000x1, .i32⟩
  | .hbm, ⟨47, _⟩ => ⟨S_, .i1⟩
  | .hbm, ⟨48, _⟩ => ⟨S1000, .i1⟩
  | .hbm, ⟨49, _⟩ => ⟨S50000, .i1⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000, .i1⟩
  | .hbm, ⟨59, _⟩ => ⟨S400000, .i1⟩
  | .hbm, ⟨60, _⟩ => ⟨S400000, .i1⟩
  | .hbm, ⟨61, _⟩ => ⟨S400000x1, .f32⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S400000x256, .f32⟩
  | .hbm, ⟨71, _⟩ => ⟨S400000x256, .f32⟩
  | .hbm, ⟨72, _⟩ => ⟨S400000x256, .f32⟩
  | .hbm, ⟨73, _⟩ => ⟨S400000x256, .f32⟩
  | .hbm, ⟨74, _⟩ => ⟨S_, .f32⟩
  | .hbm, ⟨75, _⟩ => ⟨S400000, .f32⟩
  | .hbm, ⟨76, _⟩ => ⟨S400000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S400000, .f32⟩
  | .hbm, ⟨84, _⟩ => ⟨S400000, .i1⟩
  | .hbm, ⟨85, _⟩ => ⟨S400000, .i1⟩
  | .hbm, ⟨86, _⟩ => ⟨S400000, .i1⟩
  | .hbm, ⟨87, _⟩ => ⟨S400000x1, .i1⟩
  | .hbm, ⟨88, _⟩ => ⟨S_, .f32⟩
  | .hbm, ⟨89, _⟩ => ⟨S_, .f32⟩
  | .hbm, ⟨90, _⟩ => ⟨S400000x256, .i1⟩
  | .hbm, ⟨91, _⟩ => ⟨S400000x256, .f32⟩
  | .hbm, ⟨92, _⟩ => ⟨S400000x256, .f32⟩
  | .hbm, ⟨93, _⟩ => ⟨S_, .f32⟩
  | .hbm, ⟨94, _⟩ => ⟨S50000x256, .f32⟩
  | .hbm, ⟨95, _⟩ => ⟨S400000x1, .i32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1x256, .f32⟩
  | .local _ .vmem, ⟨3, _⟩ => ⟨S5000x256, .f32⟩
  | .local _ .vmem, ⟨4, _⟩ => ⟨S5000x256, .f32⟩
  | .local _ .vmem, ⟨5, _⟩ => ⟨S256x256, .bf16⟩
  | .local _ .vmem, ⟨6, _⟩ => ⟨S5000x256, .f32⟩
  | .local _ .vmem, ⟨7, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x256_S1x256_0_0 : ∀ a, (![0, 0] : Fin 2 → Nat) a + S1x256.size a ≤ S1x256.size a
  h_S1x256 : 0 < S1x256.numel
  inb_S1000x256_S1000x256_0_0 : ∀ a, (![0, 0] : Fin 2 → Nat) a + S1000x256.size a ≤ S1000x256.size a
  h_S1000x256 : 0 < S1000x256.numel
  shapeCasts_S1x256_S1x256 : S1x256.ShapeCasts S1x256
  reduces_S1000x256_S256 : S1000x256.Reduces [0] S256
  shapeCasts_S256_S1x256 : S256.ShapeCasts S1x256
  shapeCasts_S1x256_S256 : S1x256.ShapeCasts S256
  reducesTo_S256_S_d0 : S256.ReducesTo [0] S_
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  transposes_S256x256_S256x256_1_0 : S256x256.Transposes [1, 0] S256x256
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  reducesTo_S400000x256_S400000_d1 : S400000x256.ReducesTo [1] S400000
  reducesTo_S400000_S_d0 : S400000.ReducesTo [0] S_
  bcast_S_S400000x256 : S_.BroadcastsInDim S400000x256 (![] : Fin 0 → Fin S400000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  dot_S5000x256_S256x256_S5000x256_1_0_0_1_n_n_wf : DotDims.WF S5000x256 S256x256 S5000x256 [1] [0] [0] [1] [] []
  scatter_S50000_S1000x1_S1000_n_0_0_1_wf : ScatterDims.WF S50000 S1000x1 S1000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S1000x1_S1000_n_0_0_1 : ScatterDims S50000 S1000x1 S1000 where
  updateWindowDims := []
  insertedWindowDims := [0]
  scatterDimsToOperandDims := [0]
  indexVectorDim := 1
  wf := scatter_S50000_S1000x1_S1000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S400000 : Shape := ⟨1, ![400000]⟩
abbrev S1000 : Shape := ⟨1, ![1000]⟩
abbrev S256x256 : Shape := ⟨2, ![256, 256]⟩
abbrev S256 : Shape := ⟨1, ![256]⟩
abbrev S_ : Shape := ⟨0, ![]⟩
abbrev S1x256 : Shape := ⟨2, ![1, 256]⟩
abbrev S1x400000 : Shape := ⟨2, ![1, 400000]⟩
abbrev S50000 : Shape := ⟨1, ![50000]⟩
abbrev S1000x1 : Shape := ⟨2, ![1000, 1]⟩
abbrev S400000x1 : Shape := ⟨2, ![400000, 1]⟩
abbrev S400000x256 : Shape := ⟨2, ![400000, 256]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S400000, .f32⟩
  | .hbm, ⟨3, _⟩ => ⟨S1000, .i32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256x256, .f32⟩
  | .hbm, ⟨21, _⟩ => ⟨S1x256, .f32⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S_, .i1⟩
  | .hbm, ⟨30, _⟩ => ⟨S256x256, .f32⟩
  | .hbm, ⟨31, _⟩ => ⟨S256x256, .f32⟩
  | .hbm, ⟨32, _⟩ => ⟨S50000x256, .f32⟩
  | .hbm, ⟨33, _⟩ => ⟨S1x400000, .i32⟩
  | .hbm, ⟨34, _⟩ => ⟨S400000, .i32⟩
  | .hbm, ⟨35, _⟩ => ⟨S1x400000, .i32⟩
  | .hbm, ⟨36, _⟩ => ⟨S400000, .i32⟩
  | .hbm, ⟨37, _⟩ => ⟨S_, .i1⟩
  | .hbm, ⟨38, _⟩ => ⟨S50000, .i1⟩
  | .hbm, ⟨39, _⟩ => ⟨S_, .i32⟩
  | .hbm, ⟨40, _⟩ => ⟨S1000, .i32⟩
  | .hbm, ⟨41, _⟩ => ⟨S1000, .i1⟩
  | .hbm, ⟨42, _⟩ => ⟨S_, .i32⟩
  | .hbm, ⟨43, _⟩ => ⟨S1000, .i32⟩
  | .hbm, ⟨44, _⟩ => ⟨S1000, .i32⟩
  | .hbm, ⟨45, _⟩ => ⟨S1000, .i32⟩
  | .hbm, ⟨46, _⟩ => ⟨S1000x1, .i32⟩
  | .hbm, ⟨47, _⟩ => ⟨S_, .i1⟩
  | .hbm, ⟨48, _⟩ => ⟨S1000, .i1⟩
  | .hbm, ⟨49, _⟩ => ⟨S50000, .i1⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000, .i1⟩
  | .hbm, ⟨59, _⟩ => ⟨S400000, .i1⟩
  | .hbm, ⟨60, _⟩ => ⟨S400000, .i1⟩
  | .hbm, ⟨61, _⟩ => ⟨S400000x1, .f32⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S400000x256, .f32⟩
  | .hbm, ⟨71, _⟩ => ⟨S400000x256, .f32⟩
  | .hbm, ⟨72, _⟩ => ⟨S400000x256, .f32⟩
  | .hbm, ⟨73, _⟩ => ⟨S400000x256, .f32⟩
  | .hbm, ⟨74, _⟩ => ⟨S_, .f32⟩
  | .hbm, ⟨75, _⟩ => ⟨S400000, .f32⟩
  | .hbm, ⟨76, _⟩ => ⟨S400000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S400000, .f32⟩
  | .hbm, ⟨84, _⟩ => ⟨S400000, .i1⟩
  | .hbm, ⟨85, _⟩ => ⟨S400000, .i1⟩
  | .hbm, ⟨86, _⟩ => ⟨S400000, .i1⟩
  | .hbm, ⟨87, _⟩ => ⟨S400000x1, .i1⟩
  | .hbm, ⟨88, _⟩ => ⟨S_, .f32⟩
  | .hbm, ⟨89, _⟩ => ⟨S_, .f32⟩
  | .hbm, ⟨90, _⟩ => ⟨S400000x256, .i1⟩
  | .hbm, ⟨91, _⟩ => ⟨S400000x256, .f32⟩
  | .hbm, ⟨92, _⟩ => ⟨S400000x256, .f32⟩
  | .hbm, ⟨93, _⟩ => ⟨S_, .f32⟩
  | .hbm, ⟨94, _⟩ => ⟨S50000x256, .f32⟩
  | .hbm, ⟨95, _⟩ => ⟨S400000x1, .i32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v0 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call4_v0 : Ref sig .tc := ⟨.hbm, 73, rfl⟩
abbrev main_call4_cst : Ref sig .tc := ⟨.hbm, 74, rfl⟩
abbrev main_call4_v1 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩

abbrev nD : Nat := 1
abbrev τ : Topo := Topo.v7x

variable {F : FTy → Type} [FloatOps F]

class Facts₀ : Prop where
  reducesTo_S50000x256_S256_d0 : S50000x256.ReducesTo [0] S256
  h_S_ : 0 < S_.numel
  reducesTo_S256_S_d0 : S256.ReducesTo [0] S_
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  transposes_S256x256_S256x256_1_0 : S256x256.Transposes [1, 0] S256x256
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  reducesTo_S400000x256_S400000_d1 : S400000x256.ReducesTo [1] S400000
  reducesTo_S400000_S_d0 : S400000.ReducesTo [0] S_
  bcast_S_S400000x256 : S_.BroadcastsInDim S400000x256 (![] : Fin 0 → Fin S400000x256.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  scatter_S50000_S1000x1_S1000_n_0_0_1_wf : ScatterDims.WF S50000 S1000x1 S1000 [] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S1000x1_S1000_n_0_0_1 : ScatterDims S50000 S1000x1 S1000 where
  updateWindowDims := []
  insertedWindowDims := [0]
  scatterDimsToOperandDims := [0]
  indexVectorDim := 1
  wf := scatter_S50000_S1000x1_S1000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

class Facts : Prop extends Facts₀ where

variable [Facts]
-- ==== Proof.ColSum.lean ====
/-
  The value of the column-norm region: per-column sums of squares of a [50000,256] array.

  The region walks 50 row tiles of 1000 rows and keeps ONE [1,256] accumulator block whose index never moves. At the
  first tile it stores a row of zeros, reads it back and adds the tile's contribution; at every later tile it adds the
  tile's contribution to what the accumulator held. A tile's contribution in column j is the sum over the tile's 1000
  rows r of x(1000 t + r, j)^2. So after tile n the accumulator holds, in column j, the ordered chain
  ((0 + s_0) + s_1) + … + s_n, and over the extended reals — where addition is associative and commutative, with no
  finiteness asked — that chain is 0 plus the sum of the squares of the first 1000 (n + 1) rows of column j. The
  accumulator is written back after the last tile only, and its one block is the whole [1,256] result array, so the
  result array ends holding, in column j, 0 plus the sum of x(i, j)^2 over all 50000 rows i.

  The steps: what one grid point leaves in the accumulator, for any float values (`first_point`, `later_point`); a
  tile's contribution read at one column over the extended reals (`tileSq_apply`); a tile's entry as an entry of the
  array (`tile_entry`); the running sum by induction on the grid point (`acc_eq`); the one write-back and the cover
  of the result array by its single block (`flushed_last`, `final`).
-/
import proofs.«174368_j33191507263709_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Data.Fintype.BigOperators
import Mathlib.Algebra.BigOperators.Group.Finset.Basic

noncomputable section

open Idealize.ShloMosaic Idealize.ShloMosaic.TcCoe Idealize.SL.Sem
open Idealize.ShloMosaic.Pipeline (Dat)
open Idealize.ShloMosaic.ValueIdx
open scoped BigOperators

namespace Cert.KernelIdeal.ColSum

open Cert.KernelIdeal Cert.KernelIdeal.Gen

section AnyValues

variable {F : FTy → Type} [FloatOps F]

/-- Both offsets of the whole-buffer accesses are zero. -/
theorem off00 : (![0, 0] : Fin 2 → Nat) = fun _ => 0 := funext fun a => by fin_cases a <;> rfl

/-- The [1,256] block of zeros that the first grid point stores. -/
abbrev zeroRow : Vec F S1x256 .f32 := broadcast S1x256 (Scalar.ofBits .f32 0x00000000#32)

/-- One tile's contribution: the squares of a [1000,256] tile summed down its rows, as a [1,256] row. -/
def tileSq (x : Vec F S1000x256 .f32) : FVec F S1x256 .f32 :=
  shapeCast S1x256
    (multiReduction .add [0] S256 (mulf x x) 0x00000000#32 reduces_S1000x256_S256 (.inl rfl) rfl)
    shapeCasts_S256_S1x256

/-- At a later grid point the body adds the tile's contribution to what the accumulator held. -/
theorem later_point (c : Dev nD) (i : grid0.Coords) (a1 : Memref sig .tc .vmem S1000x256 .f32) (h1 : a1.IsWhole)
    (a2 : Memref sig .tc .vmem S1x256 .f32) (h2 : a2.IsWhole) (hc : ¬cond0_0 i)
    (x : Vec F S1000x256 .f32) (acc : Vec F S1x256 .f32) :
    out0_B_1 c i a1 h1 a2 h2 hc x acc = addf acc (tileSq x) := by
  unfold out0_B_1
  rw [View.read_writes_eq_canon _ _ _ (cover0_B_1 c i a1 h1 a2 h2 hc x acc)]
  unfold kernelRun0_B
  dsimp only
  sl_unfold_words
  rw [View.canon_unit_zero off00]
  unfold k0_pay2 tileSq
  simp only [View.readAt_eq_ld, h1.read_unread, h2.read_unread, View.ld_unit_zero (S := S1000x256) off00,
    View.ld_unit_zero (S := S1x256) off00, shapeCast_self]

/-- At the first grid point the body stores the zero row, reads it back and adds the tile's contribution. -/
theorem first_point (c : Dev nD) (i : grid0.Coords) (a1 : Memref sig .tc .vmem S1000x256 .f32) (h1 : a1.IsWhole)
    (a2 : Memref sig .tc .vmem S1x256 .f32) (h2 : a2.IsWhole) (hc : cond0_0 i)
    (x : Vec F S1000x256 .f32) :
    out0_A_1 c i a1 h1 a2 h2 hc x = addf zeroRow (tileSq x) := by
  unfold out0_A_1
  rw [View.read_writes_eq_canon _ _ _ (cover0_A_1 c i a1 h1 a2 h2 hc x)]
  unfold kernelRun0_A
  dsimp only
  sl_unfold_words
  rw [View.canon_cons_unit_zero (S := S1x256) off00, View.readCov_unit_zero (S := S1x256) _ off00]
  unfold k0_pay2 k0_pay1 tileSq
  simp only [View.readAt_eq_ld, h1.read_unread, View.ld_unit_zero (S := S1000x256) off00, shapeCast_self]

end AnyValues

section AtIdeal

/-- The row index over column `j` with row `r` put back on the summed axis. -/
theorem lift_row (h : S1000x256.Reduces [0] S256) (j : Fin 256) (r : Fin 1000) :
    h.lift (ix1 j) r = ix2 r j := by
  funext a
  match a with
  | ⟨0, _⟩ => exact Fin.ext rfl
  | ⟨1, _⟩ => exact Fin.ext rfl

/-- Over the extended reals a tile's contribution at column `j` is the sum of the squares of that column's 1000 entries. -/
theorem tileSq_apply (x : Vec Ideal S1000x256 .f32) (u : Fin 1) (j : Fin 256) :
    tileSq (F := Ideal) x (ix2 u j) = ∑ r : Fin 1000, x (ix2 r j) * x (ix2 r j) := by
  unfold tileSq
  refine (shapeCast_a_1a_apply _ shapeCasts_S256_S1x256 u j).trans ?_
  refine (Ideal.multiReduction_add_single (mulf x x) 0x00000000#32 reduces_S1000x256_S256 (.inl rfl) rfl (ix1 j)).trans ?_
  refine Finset.sum_congr rfl fun (r : Fin 1000) _ => ?_
  exact congrArg (fun i => x i * x i) (lift_row reduces_S1000x256_S256 j r)

end AtIdeal

section Blocks

variable {F : FTy → Type} [FloatOps F]
variable (V : (c : Dev nD) → (b : Ref sig .tc) → Buf (Elt F) ((c : Thread nD τ).loc b))

/-- The input window's block at grid point `t` is block row `t`, block column 0. -/
theorem in_index : ∀ t : Fin cfg0.N, win0_0.index t 0 = t.val ∧ win0_0.index t 1 = 0 :=
  (by decide +kernel : ∀ t : Fin grid0.N, win0_0.index t 0 = t.val ∧ win0_0.index t 1 = 0)

/-- Entry (r, j) of the tile at grid point `t` is entry (1000 t + r, j) of the array. -/
theorem tile_entry (c : Dev nD) (t : Fin cfg0.N) (r : Fin 1000) (j : Fin 256) (hr : 1000 * t.val + r.val < 50000) :
    (iblk0 V c 0 t : Vec F S1000x256 .f32) (ix2 r j)
      = (V c main_arg0 : Vec F S50000x256 .f32) (ix2 ⟨1000 * t.val + r.val, hr⟩ j) := by
  unfold iblk0
  rw [View.read_apply]
  show V c main_arg0 _ = V c main_arg0 _
  congr 1
  funext a
  apply Fin.ext
  match a with
  | ⟨0, _⟩ => show win0_0.index t 0 * 1000 + 1 * r.val = 1000 * t.val + r.val; rw [(in_index t).1]; omega
  | ⟨1, _⟩ => show win0_0.index t 1 * 256 + 1 * j.val = j.val; rw [(in_index t).2]; omega

end Blocks

section RunningSum

variable (V : (c : Dev nD) → (b : Ref sig .tc) → Buf (Elt Ideal) ((c : Thread nD τ).loc b))

/-- The square of entry (i, j), taken as zero below the array's last row. -/
def sqAt (x : S50000x256.Idx → EReal) (j : Fin 256) (i : ℕ) : EReal :=
  if h : i < 50000 then x (ix2 ⟨i, h⟩ j) * x (ix2 ⟨i, h⟩ j) else 0

/-- The tile at grid point `t` contributes the squares of rows 1000 t … 1000 t + 999. -/
theorem tile_sum (c : Dev nD) (t : Fin cfg0.N) (u : Fin 1) (j : Fin 256) :
    tileSq (F := Ideal) (iblk0 V c 0 t) (ix2 u j)
      = ∑ i ∈ Finset.range 1000, sqAt (V c main_arg0) j (1000 * t.val + i) := by
  have hN : t.val < 50 := lt_of_lt_of_eq t.isLt (show cfg0.N = 50 from N_0)
  refine (tileSq_apply (iblk0 V c 0 t) u j).trans ?_
  rw [← Fin.sum_univ_eq_sum_range (fun i => sqAt (V c main_arg0) j (1000 * t.val + i)) 1000]
  refine Finset.sum_congr rfl fun r _ => ?_
  have hr : 1000 * t.val + r.val < 50000 := by have := r.isLt; omega
  rw [tile_entry V c t r j hr]
  unfold sqAt
  rw [dif_pos hr]

/-- After grid point `n` the accumulator holds, in column `j`, the zero plus the squares of the first 1000 (n + 1) rows. -/
theorem acc_eq (c : Dev nD) (u : Fin 1) (j : Fin 256) : ∀ (n : ℕ) (h : n < cfg0.N),
    (outsAt0 V c n h : Vec Ideal S1x256 .f32) (ix2 u j)
      = Ideal.ofBits .f32 0x00000000#32 + ∑ i ∈ Finset.range (1000 * (n + 1)), sqAt (V c main_arg0) j i
  | 0, h => by
    rw [outsAt0_A V c ⟨0, h⟩ rfl,
      first_point c (grid0.coords ⟨0, h⟩) (ms0_0 ⟨0, h⟩) (hs0_0 ⟨0, h⟩) (ms0_1 ⟨0, h⟩) (hs0_1 ⟨0, h⟩) _ (iblk0 V c 0 ⟨0, h⟩)]
    show Ideal.ofBits .f32 0x00000000#32 + tileSq (F := Ideal) (iblk0 V c 0 ⟨0, h⟩) (ix2 u j) = _
    rw [tile_sum V c ⟨0, h⟩ u j]
    simp only [Nat.mul_zero, Nat.zero_add, Nat.mul_one]
  | n + 1, h => by
    have hN : cfg0.N = 50 := N_0
    have hB : ¬(⟨n + 1, h⟩ : Fin cfg0.N).val % 50 = 0 := by dsimp only; omega
    rw [outsAt0_B V c ⟨n + 1, h⟩ hB,
      later_point c (grid0.coords ⟨n + 1, h⟩) (ms0_0 ⟨n + 1, h⟩) (hs0_0 ⟨n + 1, h⟩) (ms0_1 ⟨n + 1, h⟩) (hs0_1 ⟨n + 1, h⟩) _
        (iblk0 V c 0 ⟨n + 1, h⟩) _]
    show (outsAt0 V c n _ : Vec Ideal S1x256 .f32) (ix2 u j) + tileSq (F := Ideal) (iblk0 V c 0 ⟨n + 1, h⟩) (ix2 u j) = _
    rw [acc_eq c u j n, tile_sum V c ⟨n + 1, h⟩ u j, add_assoc,
      show 1000 * (n + 1 + 1) = 1000 * (n + 1) + 1000 from by omega, Finset.sum_range_add]

end RunningSum

section Result

variable (V : (c : Dev nD) → (b : Ref sig .tc) → Buf (Elt Ideal) ((c : Thread nD τ).loc b))

/-- column j's sum of squares over all 50000 rows, from the zero the reset stores -/
def colsum (x : S50000x256.Idx → EReal) : S1x256.Idx → EReal :=
  fun y => Ideal.ofBits .f32 0x00000000#32 + ∑ i : Fin 50000, x (ix2 i (y 1)) * x (ix2 i (y 1))

/-- Summed over all 50000 rows, no row is past the array's end. -/
theorem all_rows (x : S50000x256.Idx → EReal) (j : Fin 256) :
    ∑ i ∈ Finset.range 50000, sqAt x j i = ∑ i : Fin 50000, x (ix2 i j) * x (ix2 i j) := by
  rw [← Fin.sum_univ_eq_sum_range (fun i => sqAt x j i) 50000]
  refine Finset.sum_congr rfl fun i _ => ?_
  unfold sqAt
  rw [dif_pos i.isLt]

/-- The last grid point, the only one whose accumulator is written back. -/
abbrev lastPt : Fin cfg0.N := ⟨49, by rw [show cfg0.N = 50 from N_0]; decide⟩

/-- After the last grid point the accumulator holds every column's full sum. -/
theorem last_acc (c : Dev nD) :
    (outsAt0 V c lastPt.val lastPt.isLt : Vec Ideal S1x256 .f32) = colsum (V c main_arg0) := by
  funext y
  obtain ⟨u, j, rfl⟩ : ∃ (u : Fin 1) (j : Fin 256), y = ix2 u j := ⟨y 0, y 1, eq_ix2 y⟩
  refine (acc_eq V c u j 49 lastPt.isLt).trans ?_
  rw [show 1000 * (49 + 1) = 50000 from rfl, all_rows]
  rfl

/-- The one write-back writes the full sums: the output's single block, at offset zero, is the whole [1,256] array. -/
theorem flushed_last (c : Dev nD) (t : Fin cfg0.N) (hf : (cfg0.win 1).flush t = true) :
    (dat0 (F := Ideal) V c).flushed 1 t
      = ((cfg0.win 1).blk t).view.read (Elt Ideal) (colsum (V c main_arg0)) := by
  have hN : cfg0.N = 50 := N_0
  have h49 : t.val = 49 := by have := (flush0_1 t).mp hf; have := t.isLt; omega
  obtain rfl : t = lastPt := Fin.ext h49
  show (cfg0.win 1).cut (grid0.coords lastPt) ((dat0 (F := Ideal) V c).after 1 lastPt) = _
  rw [after0_1, last_acc V c]
  have hoff : (fun a => win0_1.index lastPt a * main_v0.ty.shape.size a) = fun _ => 0 :=
    funext fun a => by fin_cases a <;> decide
  exact (Memref.read_access_unit_zero (Elt Ideal) main_v0 hoff (fun a => by rw [congrFun hoff a]; simp)
    (colsum (V c main_arg0))).symm

/-- Region 0's result array ends holding every column's sum of squares over all 50000 rows. -/
theorem final (c : Dev nD) : (dat0 (F := Ideal) V c).arrAt 1 cfg0.N = colsum (V c main_arg0) :=
  (dat0 (F := Ideal) V c).arrAt_eq_of_cover 1 (colsum (V c main_arg0)) (flushed_last V c) fun i =>
    ⟨lastPt, (flush0_1 lastPt).mpr rfl, by
      show i ∈ ((View.whole main_v0).slice (win0_1.rect lastPt)).set
      rw [View.set_slice_whole, Rect.mem_set_unit]
      intro a
      have hoff : ∀ a, win0_1.index lastPt a * win0_1.size a = 0 := by decide +kernel
      have hsz : ∀ a, win0_1.xsize (grid0.coords lastPt) a = S1x256.size a := by decide +kernel
      rw [hoff a, hsz a, Nat.zero_add]
      exact ⟨Nat.zero_le _, (i a).isLt⟩⟩

end Result

end Cert.KernelIdeal.ColSum

end
-- ==== Proof.MatMul.lean ====
/-
  The value of the second region (the tiled matrix product) at the ideal instance: after its ten points the
  output array holds, at row i and column j, the sum over k of x(i,k) * w(k,j), where x is the first operand
  array and w the 256 x 256 operand, both as the region finds them.
-/
import proofs.«174368_j33191507263709_1_alg».proof.Proof.Gen.KernelIdeal.Frame
import Idealize.ShloMosaic.Lib.Pipeline.Value
import Idealize.ShloMosaic.Lib.ValueIdx
import Idealize.ShloMosaic.PureOps.Ideal.Laws
import Mathlib.Algebra.BigOperators.Group.Finset.Basic
import Mathlib.Data.EReal.Basic

set_option maxRecDepth 16384

noncomputable section

namespace Cert.KernelIdeal.MatMul

open Idealize.ShloMosaic Idealize.ShloMosaic.TcCoe Idealize.ShloMosaic.ValueIdx Cert.KernelIdeal Cert.KernelIdeal.Gen
open Idealize.SL.Sem
open Idealize.ShloMosaic.Pipeline (Dat)

/-- row i of x against column j of w -/
def mm (x : S50000x256.Idx → EReal) (w : S256x256.Idx → EReal) : S50000x256.Idx → EReal :=
  fun j => ∑ k : Fin 256, x (ix2 (j 0) k) * w (ix2 k (j 1))

/-! ## The product of one tile, at an index -/

/-- The left operand is read at the result's row: axis 0 is not contracted. -/
theorem lhs_axis0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … and at the contraction index on axis 1. -/
theorem lhs_axis1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The right operand is read at the contraction index on axis 0 -/
theorem rhs_axis0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- … and at the result's column on axis 1. -/
theorem rhs_axis1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The body's arithmetic at row p and column q of the tile: the narrowing of the left operand is the identity on
    the extended reals, the reshape is to the same shape, the accumulator is zero, so what is left is the sum over
    the contraction index of the products. -/
theorem pay_apply (x0 : Vec Ideal S5000x256 .f32) (x1 : Vec Ideal S256x256 .bf16) (p : Fin 5000) (q : Fin 256) :
    k1_pay1 (F := Ideal) x0 x1 (ix2 p q) = ∑ k : Fin 256, x0 (ix2 p k) * x1 (ix2 k q) := by
  unfold k1_pay1
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er, truncf_apply, shapeCast_self]

/-- The same, when the tile's operands are rows of x (those of the row `i 0`) and the whole of w: the entry of the
    product at `i`. -/
theorem pay_block (x : S50000x256.Idx → EReal) (w : S256x256.Idx → EReal)
    (x0 : Vec Ideal S5000x256 .f32) (x1 : Vec Ideal S256x256 .bf16) (i : S50000x256.Idx) (p : Fin 5000) (q : Fin 256)
    (h0 : ∀ k : Fin 256, x0 (ix2 p k) = x (ix2 (i 0) k))
    (h1 : ∀ k : Fin 256, x1 (ix2 k q) = w (ix2 k (i 1))) :
    k1_pay1 (F := Ideal) x0 x1 (ix2 p q) = mm x w i := by
  rw [pay_apply]
  show _ = ∑ k : Fin 256, x (ix2 (i 0) k) * w (ix2 k (i 1))
  exact Finset.sum_congr rfl fun k _ => by rw [h0, h1]

/-! ## What the body leaves in the output's buffer -/

theorem hz : (![0, 0] : Fin 2 → Nat) = fun _ => 0 := funext fun a => match a with | ⟨0, _⟩ => rfl | ⟨1, _⟩ => rfl

/-- The one whole store leaves its payload, computed from the two whole loads. -/
theorem out_eq (x0 : Vec Ideal S5000x256 .f32) (x1 : Vec Ideal S256x256 .bf16) :
    out1_2 (F := Ideal) x0 x1 = k1_pay1 x0 x1 := by
  unfold out1_2
  rw [View.canon_unit_zero hz]
  simp only [View.ld_unit_zero (S := S5000x256) hz, View.ld_unit_zero (S := S256x256) hz]

/-! ## From the blocks to the array -/

/-- The printed index maps, decided over the ten points: the rows' tiles of x and of the output are at the point's
    number, the 256 x 256 operand is one block. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT t WRITES BACK is block t of the product of the arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (mm (V c main_arg0) (V c main_v16)) := by
  show (cfg1.win 2).cut (grid1.coords t) ((dat1 V c).after 2 t) = _
  rw [after1_2, out_eq]
  obtain ⟨e0, e1, e2, e3, e4, e5⟩ := idx_facts t
  refine funext fun (j : S5000x256.Idx) => ?_
  obtain ⟨p, q, rfl⟩ : ∃ (p : Fin 5000) (q : Fin 256), j = ix2 p q := ⟨j 0, j 1, eq_ix2 j⟩
  show k1_pay1 (iblk1 V c 0 t) (iblk1 V c 1 t) (ix2 p q) = mm (V c main_arg0) (V c main_v16) (((cfg1.win 2).blk t).view.emb (ix2 p q))
  refine pay_block _ _ _ _ _ p q (fun k => ?_) (fun k => ?_)
  · show V c main_arg0 (((cfg1.win 0).blk t).view.emb (ix2 p k)) = V c main_arg0 (ix2 ((((cfg1.win 2).blk t).view.emb (ix2 p q)) 0) k)
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * k.val = k.val; omega
  · show V c main_v16 (((cfg1.win 1).blk t).view.emb (ix2 k q)) = V c main_v16 (ix2 k ((((cfg1.win 2).blk t).view.emb (ix2 p q)) 1))
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * q.val = win1_2.index t (1 : Fin 2) * 256 + 1 * q.val; omega

/-- An index of the array is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v17).slice (win1_2.rect t)).set ↔ _
  rw [View.set_slice_whole, Rect.mem_set_unit]
  exact Iff.rfl

/-- The ten blocks of 5000 rows tile the 50000 rows: row r is in the block of point r / 5000, which writes back. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, lt_of_lt_of_eq (by omega : (i 0).val / 5000 < 10) (show cfg1.N = 10 from N_1).symm⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- THE ARRAY after the region: the product of x and w, entry by entry. -/
theorem final (V : (c : Dev nD) → (b : Ref sig .tc) → Buf (Elt Ideal) ((c : Thread nD τ).loc b)) (c : Dev nD) :
    (dat1 (F := Ideal) V c).arrAt 2 cfg1.N = mm (V c main_arg0) (V c main_v16) :=
  (dat1 V c).arrAt_eq_of_cover 2 (mm (V c main_arg0) (V c main_v16)) (fun t _ => flushed_eq V c t) cover

end Cert.KernelIdeal.MatMul

end
-- ==== Proof.Bridge.lean ====
/-
  From the two kernel regions' arrays to the program's result, over the extended reals.

  Between and after its two grid kernels the program applies host operations that are, one for one, the reference's own.
  So its result is the reference's last stage once two things are known. First, that the column sums of squares the
  first kernel leaves, 0 + the sum over all 50000 rows of x(i,j)², are the reference's reduction of x · x along the rows
  (`colsum_eq`): then the norms, the pruning threshold, the pruned weights and their transpose are the reference's
  (`W8_v16`; the narrowing to bf16 that follows is the identity). Second, that the second kernel's rows-by-columns
  products against the narrowed operand are the reference's `dot_general` against the operand itself (`mm_eq`,
  `W9_v17`). The remaining operations — the edges' destinations and locks, the messages, their norms, the mask, the
  masked messages summed into their destination rows, the bias — are read stretch by stretch against the reference's
  stages (`dst_eq` … `sum_eq`, chained in `out_eq`), each from a variable for the contents it starts from, and no
  operation is ever opened: the two sides are the same operations of equal operands.
-/
import proofs.«174368_j33191507263709_1_alg».proof.Proof.Gen.KernelIdeal.Frame
import proofs.«174368_j33191507263709_1_alg».proof.Proof.ColSum
import proofs.«174368_j33191507263709_1_alg».proof.Proof.MatMul
import proofs.«174368_j33191507263709_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Idealize.ShloMosaic Idealize.ShloMosaic.TcCoe Idealize.SL.Sem Idealize.ShloMosaic.StableHlo
open Idealize.ShloMosaic.ValueIdx
open Cert.KernelIdeal Cert.KernelIdeal.Gen
open Cert.KernelIdeal.ColSum (colsum)
open Cert.KernelIdeal.MatMul (mm)

variable (m : (ℓ : Loc nD τ sig) → Buf (Elt Ideal) ℓ) (ρ : Dev nD → PrngReg)

/-- Contents carried to a buffer's own type and back are the contents. -/
theorem ofBuf_toBuf {sg : RefSig} {T : BufTy} {Val : EltTy → Type} (x : StableHlo.TRef sg T) (v : T.Contents Val) :
    x.ofBuf (x.toBuf v) = v := by
  unfold StableHlo.TRef.ofBuf StableHlo.TRef.toBuf
  rw [cast_cast, cast_eq]

/-! ### What the first region's exit holds -/
theorem W1_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl
theorem W1_v0 (c : Dev nD) : W1 m ρ c (Proc.devRef .tc main_v0) = colsum (m ((c : Thread nD τ).loc main_arg0)) :=
  (W1_arr m ρ c 1).trans ((Cert.KernelIdeal.ColSum.final (V0 m ρ) c).trans rfl)

/-! ### The arguments at the second region's entry -/
theorem W8_arg0 (c : Dev nD) : W8 m ρ c (Proc.devRef .tc main_arg0) = m ((c : Thread nD τ).loc main_arg0) := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_arg0) = _
  after_results_simp
  exact W1_arg0 m ρ c

/-! ### The reference's stages, opened one at a time -/

/-- The column sums of squares, their unit axis dropped, are the reference's reduction of the squares along the rows. -/
theorem colsum_eq (x0 : S50000x256.Idx → EReal) (h : S1x256.ShapeCasts S256) :
    shapeCast S256 (colsum x0) h = Cert.ReferenceIdeal.Read.val_main_call0_v1 (F := Ideal) x0 := by
  funext i
  obtain ⟨q, rfl⟩ : ∃ q : Fin 256, i = ix1 q := ⟨i 0, eq_ix1 i⟩
  rw [Cert.ReferenceIdeal.Read.val_main_call0_v1_apply]
  refine (shapeCast_1a_a_apply (colsum x0) h q).trans ?_
  unfold colsum
  refine congrArg₂ (· + ·) rfl (Finset.sum_congr rfl fun k _ => ?_)
  rw [Cert.ReferenceIdeal.Read.val_main_call0_v0_apply]
  have e : (ix2 k (ix2 (0 : Fin 1) q 1) : S50000x256.Idx) = Cert.ReferenceIdeal.Read.idx_main_call0_v1 (ix1 q) k :=
    funext fun a => Fin.ext (by match a with | ⟨0, _⟩ => rfl | ⟨1, _⟩ => rfl)
  rw [e]; rfl

/-- Row by column products against the truncated operand are the reference's `dot_general` against the operand itself. -/
theorem mm_eq (x0 : S50000x256.Idx → EReal) (x4 : S256x256.Idx → EReal) (h : FTy.bf16.bits < FTy.f32.bits) :
    mm x0 (truncf (F := Ideal) .bf16 (Cert.ReferenceIdeal.Read.val_main_v13 (F := Ideal) x0 x4) h)
      = Cert.ReferenceIdeal.Read.val_main_v14 (F := Ideal) x0 x4 := by
  funext i
  rw [Cert.ReferenceIdeal.Read.val_main_v14_apply]
  unfold mm
  refine Finset.sum_congr rfl fun k _ => ?_
  refine congrArg₂ (· * ·) (congrArg x0 ?_) ?_
  · exact funext fun a => Fin.ext (by match a with | ⟨0, _⟩ => rfl | ⟨1, _⟩ => rfl)
  · show Cert.ReferenceIdeal.Read.val_main_v13 (F := Ideal) x0 x4 _ = _
    exact congrArg _ (funext fun a => Fin.ext (by match a with | ⟨0, _⟩ => rfl | ⟨1, _⟩ => rfl))

theorem W8_arg4 (c : Dev nD) : W8 m ρ c (Proc.devRef .tc main_arg4) = m ((c : Thread nD τ).loc main_arg4) := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_arg4) = _
  after_results_simp
  exact W1_arg4 m ρ c

/-- The second region's weight operand: the reference's pruned and transposed weights, truncated. -/
theorem W8_v16 (c : Dev nD) : W8 m ρ c (Proc.devRef .tc main_v16)
    = truncf (F := Ideal) .bf16 (Cert.ReferenceIdeal.Read.val_main_v13 (F := Ideal) (m ((c : Thread nD τ).loc main_arg0)) (m ((c : Thread nD τ).loc main_arg4))) bitsLt_bf16_f32 := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_v16) = _
  after_results_simp
  try simp only [ofBuf_toBuf]
  rw [W1_v0, W1_arg4]
  have e : shapeCast main_v1.ty.shape (colsum (m ((c : Thread nD τ).loc main_arg0))) shapeCasts_S1x256_S256
      = Cert.ReferenceIdeal.Read.val_main_call0_v1 (F := Ideal) (m ((c : Thread nD τ).loc main_arg0)) := colsum_eq _ _
  rw [e]
  unfold Cert.ReferenceIdeal.Read.val_main_v13 Cert.ReferenceIdeal.Read.val_main_v12 Cert.ReferenceIdeal.Read.val_main_v11 Cert.ReferenceIdeal.Read.val_main_cst_2 Cert.ReferenceIdeal.Read.val_main_v10 Cert.ReferenceIdeal.Read.val_main_call2_v1 Cert.ReferenceIdeal.Read.val_main_call2_v0 Cert.ReferenceIdeal.Read.val_main_cst_1 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_cst_0 Cert.ReferenceIdeal.Read.val_main_v2 Cert.ReferenceIdeal.Read.val_main_cst Cert.ReferenceIdeal.Read.val_main_v1 Cert.ReferenceIdeal.Read.val_main_call1_v1 Cert.ReferenceIdeal.Read.val_main_call1_cst Cert.ReferenceIdeal.Read.val_main_call1_v0 Cert.ReferenceIdeal.Read.val_main_v0
  rfl

/-! ### The host operations after the second region, stage by stage

Each lemma takes the buffer contents `V` the operations start from as a variable and what it holds at the buffers they
read as hypotheses, so that the operations' terms stay small; the stages' values are the reference's own stages. -/

section Tail
variable (V : Valuation τ sig (Elt Ideal)) (x0 : (⟨S50000x256, .f32⟩ : BufTy).Contents (Elt Ideal)) (x1 : (⟨S2x400000, .i32⟩ : BufTy).Contents (Elt Ideal)) (x2 : (⟨S400000, .f32⟩ : BufTy).Contents (Elt Ideal)) (x3 : (⟨S1000, .i32⟩ : BufTy).Contents (Elt Ideal)) (x4 : (⟨S256x256, .f32⟩ : BufTy).Contents (Elt Ideal)) (x5 : (⟨S256, .f32⟩ : BufTy).Contents (Elt Ideal))

/-- The edges' destinations. -/
theorem dst_eq (h1 : V (Proc.devRef .tc main_arg1) = x1) :
    StableHlo.after hostOps2 V (Proc.devRef .tc main_v21) = Cert.ReferenceIdeal.Read.val_main_v18 (F := Ideal) x1 := by
  after_results_simp
  try simp only [ofBuf_toBuf]
  rw [h1]
  unfold Cert.ReferenceIdeal.Read.val_main_v18 Cert.ReferenceIdeal.Read.val_main_v17
  rfl

/-- The edges' locks: the destination is a locked node, or the edge is a self-loop. -/
theorem lock_eq (h1 : V (Proc.devRef .tc main_arg1) = x1) (h3 : V (Proc.devRef .tc main_arg3) = x3) :
    StableHlo.after hostOps2 V (Proc.devRef .tc main_v39) = Cert.ReferenceIdeal.Read.val_main_v36 (F := Ideal) x1 x3 := by
  after_results_simp
  try simp only [ofBuf_toBuf]
  rw [h1, h3]
  unfold Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_c_7 Cert.ReferenceIdeal.Read.val_main_v29 Cert.ReferenceIdeal.Read.val_main_v28 Cert.ReferenceIdeal.Read.val_main_c_6 Cert.ReferenceIdeal.Read.val_main_v27 Cert.ReferenceIdeal.Read.val_main_v26 Cert.ReferenceIdeal.Read.val_main_c_5 Cert.ReferenceIdeal.Read.val_main_v25 Cert.ReferenceIdeal.Read.val_main_v24 Cert.ReferenceIdeal.Read.val_main_v23 Cert.ReferenceIdeal.Read.val_main_v22 Cert.ReferenceIdeal.Read.val_main_c_4 Cert.ReferenceIdeal.Read.val_main_v21 Cert.ReferenceIdeal.Read.val_main_v20 Cert.ReferenceIdeal.Read.val_main_c_3 Cert.ReferenceIdeal.Read.val_main_v19 Cert.ReferenceIdeal.Read.val_main_c Cert.ReferenceIdeal.Read.val_main_v18 Cert.ReferenceIdeal.Read.val_main_v17 Cert.ReferenceIdeal.Read.val_main_v16 Cert.ReferenceIdeal.Read.val_main_v15
  rfl

/-- The edges' messages: the weight times the source's row of the product. -/
theorem msg_eq (h17 : V (Proc.devRef .tc main_v17) = Cert.ReferenceIdeal.Read.val_main_v14 (F := Ideal) x0 x4)
    (h1 : V (Proc.devRef .tc main_arg1) = x1) (h2 : V (Proc.devRef .tc main_arg2) = x2) :
    StableHlo.after hostOps2 V (Proc.devRef .tc main_v49) = Cert.ReferenceIdeal.Read.val_main_v46 (F := Ideal) x0 x1 x2 x4 := by
  after_results_simp
  try simp only [ofBuf_toBuf]
  rw [h17, h1, h2]
  unfold Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_c_9 Cert.ReferenceIdeal.Read.val_main_v39 Cert.ReferenceIdeal.Read.val_main_v38 Cert.ReferenceIdeal.Read.val_main_c_8 Cert.ReferenceIdeal.Read.val_main_v37 Cert.ReferenceIdeal.Read.val_main_v16 Cert.ReferenceIdeal.Read.val_main_v15
  rfl

theorem arg5_kept (h5 : V (Proc.devRef .tc main_arg5) = x5) :
    StableHlo.after hostOps2 V (Proc.devRef .tc main_arg5) = x5 := by
  after_results_simp
  exact h5

/-- The messages' norms. -/
theorem nrm_eq (h49 : V (Proc.devRef .tc main_v49) = Cert.ReferenceIdeal.Read.val_main_v46 (F := Ideal) x0 x1 x2 x4) :
    StableHlo.after hostOps2_1 V (Proc.devRef .tc main_v50) = Cert.ReferenceIdeal.Read.val_main_v47 (F := Ideal) x0 x1 x2 x4 := by
  after_results_simp
  try simp only [ofBuf_toBuf]
  rw [h49]
  unfold Cert.ReferenceIdeal.Read.val_main_v47 Cert.ReferenceIdeal.Read.val_main_call4_v1 Cert.ReferenceIdeal.Read.val_main_call4_cst Cert.ReferenceIdeal.Read.val_main_call4_v0
  rfl

/-- The mask: a norm under a tenth of the mean norm, on an edge that is not locked. -/
theorem mask_eq (h50 : V (Proc.devRef .tc main_v50) = Cert.ReferenceIdeal.Read.val_main_v47 (F := Ideal) x0 x1 x2 x4)
    (h39 : V (Proc.devRef .tc main_v39) = Cert.ReferenceIdeal.Read.val_main_v36 (F := Ideal) x1 x3) :
    StableHlo.after hostOps2_2 V (Proc.devRef .tc main_v58) = Cert.ReferenceIdeal.Read.val_main_v55 (F := Ideal) x0 x1 x2 x3 x4 := by
  after_results_simp
  try simp only [ofBuf_toBuf]
  rw [h50, h39]
  unfold Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_cst_12 Cert.ReferenceIdeal.Read.val_main_v49 Cert.ReferenceIdeal.Read.val_main_cst_11 Cert.ReferenceIdeal.Read.val_main_v48 Cert.ReferenceIdeal.Read.val_main_cst_10
  rfl

theorem zero_eq : StableHlo.after hostOps2_2 V (Proc.devRef .tc main_cst_13) = Cert.ReferenceIdeal.Read.val_main_cst_13 (F := Ideal) := by
  after_results_simp
  unfold Cert.ReferenceIdeal.Read.val_main_cst_13
  rfl

/-- The masked messages: zero where the mask is set. -/
theorem masked_eq (hz : V (Proc.devRef .tc main_cst_13) = Cert.ReferenceIdeal.Read.val_main_cst_13 (F := Ideal))
    (h58 : V (Proc.devRef .tc main_v58) = Cert.ReferenceIdeal.Read.val_main_v55 (F := Ideal) x0 x1 x2 x3 x4)
    (h49 : V (Proc.devRef .tc main_v49) = Cert.ReferenceIdeal.Read.val_main_v46 (F := Ideal) x0 x1 x2 x4) :
    StableHlo.after hostOps2_3 V (Proc.devRef .tc main_v59) = Cert.ReferenceIdeal.Read.val_main_v56 (F := Ideal) x0 x1 x2 x3 x4 := by
  after_results_simp
  try simp only [ofBuf_toBuf]
  rw [hz, h58, h49]
  unfold Cert.ReferenceIdeal.Read.val_main_v56 Cert.ReferenceIdeal.Read.val_main_call5_v2 Cert.ReferenceIdeal.Read.val_main_call5_v1 Cert.ReferenceIdeal.Read.val_main_call5_v0
  rfl

/-- The masked messages summed into their destination rows, the bias added. -/
theorem sum_eq (h59 : V (Proc.devRef .tc main_v59) = Cert.ReferenceIdeal.Read.val_main_v56 (F := Ideal) x0 x1 x2 x3 x4)
    (h21 : V (Proc.devRef .tc main_v21) = Cert.ReferenceIdeal.Read.val_main_v18 (F := Ideal) x1)
    (h5 : V (Proc.devRef .tc main_arg5) = x5) :
    StableHlo.after hostOps2_4 V (Proc.devRef .tc main_v65) = Cert.ReferenceIdeal.Read.val_main_v62 (F := Ideal) x0 x1 x2 x3 x4 x5 := by
  after_results_simp
  try simp only [ofBuf_toBuf]
  rw [h59, h21, h5]
  unfold Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_cst_14
  rfl

/-- The chain of the stages: each stretch of operations starts from what the stretch before left, the buffers it does not
    write carried over. -/
theorem out_eq (h49 : V (Proc.devRef .tc main_v49) = Cert.ReferenceIdeal.Read.val_main_v46 (F := Ideal) x0 x1 x2 x4)
    (h39 : V (Proc.devRef .tc main_v39) = Cert.ReferenceIdeal.Read.val_main_v36 (F := Ideal) x1 x3)
    (h21 : V (Proc.devRef .tc main_v21) = Cert.ReferenceIdeal.Read.val_main_v18 (F := Ideal) x1)
    (h5 : V (Proc.devRef .tc main_arg5) = x5) :
    StableHlo.after hostOps2_4 (StableHlo.after hostOps2_3 (StableHlo.after hostOps2_2 (StableHlo.after hostOps2_1 V)))
        (Proc.devRef .tc main_v65) = Cert.ReferenceIdeal.Read.val_main_v62 (F := Ideal) x0 x1 x2 x3 x4 x5 := by
  have k39 : StableHlo.after hostOps2_1 V (Proc.devRef .tc main_v39) = V (Proc.devRef .tc main_v39) := by after_results_simp
  have k49 : StableHlo.after hostOps2_2 (StableHlo.after hostOps2_1 V) (Proc.devRef .tc main_v49) = V (Proc.devRef .tc main_v49) := by
    after_results_simp
  have k21 : StableHlo.after hostOps2_3 (StableHlo.after hostOps2_2 (StableHlo.after hostOps2_1 V)) (Proc.devRef .tc main_v21)
      = V (Proc.devRef .tc main_v21) := by after_results_simp
  have k5 : StableHlo.after hostOps2_3 (StableHlo.after hostOps2_2 (StableHlo.after hostOps2_1 V)) (Proc.devRef .tc main_arg5)
      = V (Proc.devRef .tc main_arg5) := by after_results_simp
  exact sum_eq _ x0 x1 x2 x3 x4 x5
    (masked_eq _ x0 x1 x2 x3 x4 (zero_eq _) (mask_eq _ x0 x1 x2 x3 x4 (nrm_eq V x0 x1 x2 x4 h49) (k39.trans h39)) (k49.trans h49))
    (k21.trans h21) (k5.trans h5)

end Tail

/-! ### The arguments and the product at the second region's exit -/
theorem W8_arg1 (c : Dev nD) : W8 m ρ c (Proc.devRef .tc main_arg1) = m ((c : Thread nD τ).loc main_arg1) := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_arg1) = _
  after_results_simp
  exact W1_arg1 m ρ c
theorem W9_arg1 (c : Dev nD) : W9 m ρ c (Proc.devRef .tc main_arg1) = m ((c : Thread nD τ).loc main_arg1) :=
  (W9_of_ne m ρ c main_arg1 (by decide)).trans (W8_arg1 m ρ c)
theorem W8_arg2 (c : Dev nD) : W8 m ρ c (Proc.devRef .tc main_arg2) = m ((c : Thread nD τ).loc main_arg2) := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_arg2) = _
  after_results_simp
  exact W1_arg2 m ρ c
theorem W9_arg2 (c : Dev nD) : W9 m ρ c (Proc.devRef .tc main_arg2) = m ((c : Thread nD τ).loc main_arg2) :=
  (W9_of_ne m ρ c main_arg2 (by decide)).trans (W8_arg2 m ρ c)
theorem W8_arg3 (c : Dev nD) : W8 m ρ c (Proc.devRef .tc main_arg3) = m ((c : Thread nD τ).loc main_arg3) := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_arg3) = _
  after_results_simp
  exact W1_arg3 m ρ c
theorem W9_arg3 (c : Dev nD) : W9 m ρ c (Proc.devRef .tc main_arg3) = m ((c : Thread nD τ).loc main_arg3) :=
  (W9_of_ne m ρ c main_arg3 (by decide)).trans (W8_arg3 m ρ c)
theorem W8_arg5 (c : Dev nD) : W8 m ρ c (Proc.devRef .tc main_arg5) = m ((c : Thread nD τ).loc main_arg5) := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_arg5) = _
  after_results_simp
  exact W1_arg5 m ρ c
theorem W9_arg5 (c : Dev nD) : W9 m ρ c (Proc.devRef .tc main_arg5) = m ((c : Thread nD τ).loc main_arg5) :=
  (W9_of_ne m ρ c main_arg5 (by decide)).trans (W8_arg5 m ρ c)

/-- The second region leaves the reference's matrix product in its result array. -/
theorem W9_v17 (c : Dev nD) : W9 m ρ c (Proc.devRef .tc main_v17)
    = Cert.ReferenceIdeal.Read.val_main_v14 (F := Ideal) (m ((c : Thread nD τ).loc main_arg0)) (m ((c : Thread nD τ).loc main_arg4)) := by
  refine (W9_arr m ρ c 2).trans ((Cert.KernelIdeal.MatMul.final (V8 m ρ) c).trans ?_)
  show mm (W8 m ρ c (Proc.devRef .tc main_arg0)) (W8 m ρ c (Proc.devRef .tc main_v16)) = _
  rw [W8_arg0, W8_v16]
  exact mm_eq _ _ _

/-- The program's result: the reference's last stage, of the arguments as launched. -/
theorem W14_v65 (c : Dev nD) : W14 m ρ c (Proc.devRef .tc main_v65)
    = Cert.ReferenceIdeal.Read.val_main_v62 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) :=
  out_eq (StableHlo.after hostOps2 (W9 m ρ c)) _ _ _ _ _ _
    (msg_eq (W9 m ρ c) _ _ _ _ (W9_v17 m ρ c) (W9_arg1 m ρ c) (W9_arg2 m ρ c))
    (lock_eq (W9 m ρ c) _ _ (W9_arg1 m ρ c) (W9_arg3 m ρ c))
    (dst_eq (W9 m ρ c) _ (W9_arg1 m ρ c))
    (arg5_kept (W9 m ρ c) _ (W9_arg5 m ρ c))

end Cert.KernelIdeal.Bridge
end
-- ==== Proof.lean ====
/-
  The kernel program computes, from x : f32[50000, 256], edge lists, edge weights, a lock list, W : f32[256, 256] and a bias,
  a thresholded graph convolution: the columns' norms of x prune W, h = x · W_effᵀ, and the edges' messages, masked by
  their norms and the locks, are summed into their destination rows. Two steps run as grid kernels — the per-column sums
  of squares of x, accumulated over 50 row tiles into one resident row, and the product h, ten row tiles against the
  resident 256 × 256 operand narrowed to bf16 — and everything else is the same host operations as the reference's.

  Over the extended reals the two programs agree. The accumulated chain ((0 + s₀) + s₁) + … + s₄₉ of the tiles' sums of
  squares is 0 plus the sum over all 50000 rows, which is what the reference's reduction of x · x along the rows is
  (addition is associative and commutative there; no finiteness is used). A narrowing of the float format is the identity,
  and a tile's product into a zero accumulator is, entry by entry, the sum over k of x(i,k) · w(k,j): the reference's
  `dot_general`. The host operations between and after the two kernels are the reference's own, so the results agree once
  the two kernels' arrays do.

  The frames of the two kernel programs are the generated ones; the reference's is its generated run with the result
  dropped. The ideal pass rewrote nothing, so the idealization claim is `True`.
-/
import proofs.«174368_j33191507263709_1_alg».proof.Defs
import proofs.«174368_j33191507263709_1_alg».proof.Proof.Gen.Kernel
import proofs.«174368_j33191507263709_1_alg».proof.Proof.Gen.Kernel.Frame
import proofs.«174368_j33191507263709_1_alg».proof.Proof.Gen.KernelIdeal
import proofs.«174368_j33191507263709_1_alg».proof.Proof.Gen.KernelIdeal.Frame
import proofs.«174368_j33191507263709_1_alg».proof.Proof.Gen.ReferenceIdeal
import proofs.«174368_j33191507263709_1_alg».proof.Proof.Gen.ReferenceIdeal.Run
import proofs.«174368_j33191507263709_1_alg».proof.Proof.Gen.ReferenceIdeal.Read
import proofs.«174368_j33191507263709_1_alg».proof.Proof.Gen.Pre_finite_inputs
import proofs.«174368_j33191507263709_1_alg».proof.Proof.KernelIdealRun
import proofs.«174368_j33191507263709_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- Both idealized programs end with the reference's last stage of the (agreeing) arguments in their result arrays. -/
theorem algebraic : Cert.algebraic_KernelIdeal_ReferenceIdeal := by
  intro m ρ m' ρ' _ hagree
  refine ⟨fun c => Cert.KernelIdeal.Gen.W14 m ρ c (Proc.devRef .tc Cert.KernelIdeal.main_v65),
    Cert.KernelIdeal.RunMain.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1,
    (hagree c).2.2.2.2.1, (hagree c).2.2.2.2.2]
  exact (Cert.KernelIdeal.Bridge.W14_v65 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
